-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S65536x512 32) (main_arg1 : FVec F S512 .f32) (main_arg2 : FVec F S512 .f32) : IVec S_ 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S65536x512 : Shape := ⟨2, ![65536, 512]⟩
abbrev S512 : Shape := ⟨1, ![512]⟩
abbrev S1x1 : Shape := ⟨2, ![1, 1]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S65536x512, .i32⟩
  | .hbm, ⟨1, _⟩ => ⟨S512, .f32⟩
  | .hbm, ⟨2, _⟩ => ⟨S512, .f32⟩
  | .hbm, ⟨3, _⟩ => ⟨S1x1, .f32⟩
  | .hbm, ⟨4, _⟩ => ⟨S_, .f32⟩
  | .local _ .vmem, ⟨0, _⟩ => ⟨S2048x512, .i32⟩
  | .local _ .vmem, ⟨1, _⟩ => ⟨S2048x512, .i32⟩
  | .local _ .vmem, ⟨2, _⟩ => ⟨S512, .f32⟩
  | .local _ .vmem, ⟨3, _⟩ => ⟨S512, .f32⟩
  | .local _ .vmem, ⟨4, _⟩ => ⟨S1x1, .f32⟩
  | _, _ => ⟨S65536x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S2048x512_S2048x512_0_0 : ∀ a, (![0, 0] : Fin 2 → Nat) a + S2048x512.size a ≤ S2048x512.size a
  h_S2048x512 : 0 < S2048x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S1x512_S1x512 : S1x512.ShapeCasts S1x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .i32 = 32 ∨ (Rect.block (s := S65536x512) S2048x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512 : Shape := ⟨1, ![512]⟩
abbrev S_ : Shape := ⟨0, ![]⟩
abbrev S1x512 : Shape := ⟨2, ![1, 512]⟩
abbrev S65536 : Shape := ⟨1, ![65536]⟩

abbrev nBuf : Space → Nat
  | .hbm => 39
  | .vmem => 0
  | .smem => 0
  | _ => 0

abbrev bufTy : (tb : Table) → Fin (tcTables nBuf tb) → BufTy
  | .hbm, ⟨0, _⟩ => ⟨S65536x512, .i32⟩
  | .hbm, ⟨1, _⟩ => ⟨S512, .f32⟩
  | .hbm, ⟨2, _⟩ => ⟨S512, .f32⟩
  | .hbm, ⟨3, _⟩ => ⟨S_, .i32⟩
  | .hbm, ⟨4, _⟩ => ⟨S65536x512, .i32⟩
  | .hbm, ⟨5, _⟩ => ⟨S65536x512, .i1⟩
  | .hbm, ⟨6, _⟩ => ⟨S_, .i32⟩
  | .hbm, ⟨7, _⟩ => ⟨S_, .i32⟩
  | .hbm, ⟨8, _⟩ => ⟨S65536x512, .i32⟩
  | .hbm, ⟨9, _⟩ => ⟨S65536x512, .i32⟩
  | .hbm, ⟨10, _⟩ => ⟨S65536x512, .f32⟩
  | .hbm, ⟨11, _⟩ => ⟨S512, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .i1⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S65536x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_v8 : Ref sig .tc := ⟨.hbm, 28, rfl⟩
abbrev main_v9 : Ref sig .tc := ⟨.hbm, 29, rfl⟩
abbrev main_call2_v0 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  reducesTo_S65536x512_S65536_d1 : S65536x512.ReducesTo [1] S65536
  h_S_ : 0 < S_.numel
  reducesTo_S65536_S_d0 : S65536.ReducesTo [0] S_

variable [Facts₀]

class Facts : Prop extends Facts₀ where

variable [Facts]
-- ==== Proof.KernelPieces.lean ====
/-
  What each control case of the kernel body leaves in the accumulator's staging buffer, as a value.

  The accumulator is one 1 × 1 block that stays in its buffer over the whole grid. At the first grid point the body
  stores zero, reads it back and stores zero plus the tile's total; at a middle point it stores what it found plus
  the tile's total; at the last point it does that and then stores the rescaled negation of what it just wrote. Every
  store covers the whole block, so the block ends holding the last store's value, in which a read-back of an earlier
  store of the same point is that earlier store's value.
-/
import proofs.«158068_j25941602467911_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle point: the buffer holding `acc` ends at the accumulating store's value over `acc`. -/
theorem out_B (c : Dev nD) (i : grid0.Coords) (a1 : Memref sig .tc .vmem S2048x512 .i32) (h1 : a1.IsWhole)
    (a2 : Memref sig .tc .vmem S512 .f32) (h2 : a2.IsWhole) (a3 : Memref sig .tc .vmem S512 .f32) (h3 : a3.IsWhole)
    (a4 : Memref sig .tc .vmem S1x1 .f32) (h4 : a4.IsWhole) (hc0 : ¬cond0_0 i) (hc1 : ¬cond0_1 i)
    (x0 : Vec F S2048x512 .i32) (x1 x2 : Vec F S512 .f32) (acc : Vec F S1x1 .f32) :
    out0_B_3 c i a1 h1 a2 h2 a3 h3 a4 h4 hc0 hc1 x0 x1 x2 acc = k0_pay3 x0 x1 x2 acc := by
  unfold out0_B_3
  rw [View.read_writes_eq_canon _ _ _ (cover0_B_3 c i a1 h1 a2 h2 a3 h3 a4 h4 hc0 hc1 x0 x1 x2 acc)]
  unfold kernelRun0_B
  dsimp only
  sl_unfold_words
  rw [View.canon_unit_zero hz2]
  simp only [View.readAt_eq_ld, h1.read_unread, h2.read_unread, h3.read_unread, h4.read_unread,
    View.ld_unit_zero (S := S2048x512) hz2, View.ld_unit_zero (S := S512) hz1, View.ld_unit_zero (S := S1x1) hz2]

/-- The first point: the reset's zero is read back, so the buffer ends at the accumulating store's value over
    the reset's value. -/
theorem out_A (c : Dev nD) (i : grid0.Coords) (a1 : Memref sig .tc .vmem S2048x512 .i32) (h1 : a1.IsWhole)
    (a2 : Memref sig .tc .vmem S512 .f32) (h2 : a2.IsWhole) (a3 : Memref sig .tc .vmem S512 .f32) (h3 : a3.IsWhole)
    (a4 : Memref sig .tc .vmem S1x1 .f32) (h4 : a4.IsWhole) (hc0 : cond0_0 i) (hc1 : ¬cond0_1 i)
    (x0 : Vec F S2048x512 .i32) (x1 x2 : Vec F S512 .f32) :
    out0_A_3 c i a1 h1 a2 h2 a3 h3 a4 h4 hc0 hc1 x0 x1 x2 = k0_pay3 x0 x1 x2 (k0_pay2 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S2048x512) hz2, View.ld_unit_zero (S := S512) hz1, View.ld_unit_zero (S := S1x1) hz2]

/-- The last point: the accumulating store's value is read back, so the buffer ends at the rescaling store's value
    over it. -/
theorem out_C (c : Dev nD) (i : grid0.Coords) (a1 : Memref sig .tc .vmem S2048x512 .i32) (h1 : a1.IsWhole)
    (a2 : Memref sig .tc .vmem S512 .f32) (h2 : a2.IsWhole) (a3 : Memref sig .tc .vmem S512 .f32) (h3 : a3.IsWhole)
    (a4 : Memref sig .tc .vmem S1x1 .f32) (h4 : a4.IsWhole) (hc0 : ¬cond0_0 i) (hc1 : cond0_1 i)
    (x0 : Vec F S2048x512 .i32) (x1 x2 : Vec F S512 .f32) (acc : Vec F S1x1 .f32) :
    out0_C_3 c i a1 h1 a2 h2 a3 h3 a4 h4 hc0 hc1 x0 x1 x2 acc = k0_pay1 (k0_pay3 x0 x1 x2 acc) := by
  unfold out0_C_3
  rw [View.read_writes_eq_canon _ _ _ (cover0_C_3 c i a1 h1 a2 h2 a3 h3 a4 h4 hc0 hc1 x0 x1 x2 acc)]
  unfold kernelRun0_C
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S2048x512) hz2, View.ld_unit_zero (S := S512) hz1, View.ld_unit_zero (S := S1x1) hz2]

end Cert.KernelIdeal.Pieces

end
-- ==== Proof.Spec.lean ====
/-
  The mathematics both programs compute, stated over the extended reals with no program in sight.

  For a sample row n and a feature f the log-probability cell is
      cell(y, a, b) = (a + b) · y            when the observation y is present (y ≠ -1),
                    = softplus(a)            when it is missing (y = -1),
  with softplus(a) = max(a, 0) + log1p(exp(-|a - 0|)), the form both lowerings spell.  The result is
      -( Σₙ Σ_f cell(Y[n,f], θ[f], ψ[f]) ) / 65536.
  The kernel adds the cells tile by tile (32 tiles of 2048 rows) and scales by 2⁻¹⁶; the reference adds row
  sums over all 65536 rows and divides by 65536.  Addition on the extended reals is commutative and associative,
  so regrouping 65536 = 32 · 2048 rows costs nothing, 2⁻¹⁶ is exactly 1/65536, and the sign passes through a
  product.  No finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.CoinMrf

open Idealize.ShloMosaic

/-- The pattern `0x37800000` is 2⁻¹⁶, that is 1/65536 exactly. -/
theorem ofBits_inv65536 : Ideal.ofBits .f32 0x37800000#32 = ((1 / 65536 : ℝ) : EReal) := by
  simp [Ideal.ofBits, Ideal.ieee, -EReal.coe_mul]; norm_num

/-- The pattern `0x47800000` is 65536. -/
theorem ofBits_65536 : Ideal.ofBits .f32 0x47800000#32 = ((65536 : ℝ) : EReal) := by
  simp [Ideal.ofBits, Ideal.ieee, -EReal.coe_mul]; norm_num

/-- softplus as both lowerings spell it once the never-taken NaN branch is dropped: max(a, 0) + log1p(exp(-|a - 0|)),
    the absolute value written max(d, -d). The zero is kept as the pattern it is printed with. -/
def soft (a : EReal) : EReal :=
  max a (Ideal.ofBits .f32 0x00000000#32)
    + Ideal.log1p (Ideal.exp (-(max (a - Ideal.ofBits .f32 0x00000000#32) (-(a - Ideal.ofBits .f32 0x00000000#32)))))

/-- One cell of the log-probability table: the observed value times θ + ψ where the entry is present, softplus(θ)
    where it is the missing marker -1. -/
def cell (y : BitVec 32) (a b : EReal) : EReal :=
  Scalar.select (IntOp.cmpi .ne y 4294967295#32)
    ((a + b) * FloatOps.sitofp (F := Ideal) .f32 (Scalar.select (IntOp.cmpi .ne y 4294967295#32) y 0#32))
    (soft a)

/-- A comparison of an extended real with itself for "different" answers no, ordered or unordered. -/
theorem cmp_one_self (x : EReal) : Ideal.cmp .one x x = 0#1 := by simp [Ideal.cmp]
theorem cmp_une_self (x : EReal) : Ideal.cmp .une x x = 0#1 := by simp [Ideal.cmp]

/-- Rows regrouped: a sum over 65536 rows is the sum over 32 tiles of the sums over each tile's 2048 rows. -/
theorem sum_rows {M : Type*} [AddCommMonoid M] (h : Fin 65536 → M) :
    ∑ n, h n = ∑ t : Fin 32, ∑ r : Fin 2048, h ⟨2048 * t.val + r.val, by have := t.isLt; have := r.isLt; omega⟩ := by
  rw [← Equiv.sum_comp (finProdFinEquiv.trans (finCongr (by norm_num : 32 * 2048 = 65536))) h, Fintype.sum_prod_type]
  refine Finset.sum_congr rfl fun t _ => Finset.sum_congr rfl fun r _ => congrArg h (Fin.ext ?_)
  show r.val + 2048 * t.val = 2048 * t.val + r.val
  omega

/-- The closing law. With the cells summed tile by tile, negated by subtraction from zero and scaled by 1/65536 on one
    side, and summed row by row from zero, divided by 65536 and negated on the other, the two results agree on the
    extended reals. -/
theorem result_law (g : Fin 65536 → Fin 512 → EReal) :
    ((0 : EReal) - ∑ t : Fin 32, ∑ r : Fin 2048, ∑ f : Fin 512,
        g ⟨2048 * t.val + r.val, by have := t.isLt; have := r.isLt; omega⟩ f) * ((1 / 65536 : ℝ) : EReal)
      = -(Ideal.div ((0 : EReal) + ∑ n : Fin 65536, ((0 : EReal) + ∑ f : Fin 512, g n f)) ((65536 : ℝ) : EReal)) := by
  rw [Ideal.div_coe (by norm_num : (65536 : ℝ) ≠ 0), zero_sub, EReal.neg_mul, zero_add]
  simp only [zero_add]
  rw [sum_rows fun n => ∑ f : Fin 512, g n f]

end Cert.CoinMrf

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelTile.lean ====
/-
  What the kernel body computes on one tile, at the ideal values.

  A tile is 2048 consecutive sample rows. From the tile's block of observations y and the two parameter vectors the
  body forms the 2048 × 512 table of log-probability cells, sums each row over the 512 features, sums the 2048 row
  totals, and adds the tile total to the 1 × 1 accumulator it finds. Read at the accumulator's one index, the value
  stored is the accumulator plus  Σ_r Σ_f cell(y[r,f], θ[f], ψ[f]).  The reset stores 0, and the final rescaling
  stores (0 - acc) · 1/65536.
-/
import proofs.«158068_j25941602467911_1_alg».proof.Proof.Gen.KernelIdeal.Skeleton
import proofs.«158068_j25941602467911_1_alg».proof.Proof.Spec
import proofs.«158068_j25941602467911_1_alg».proof.Proof.LibColumn
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.CoinMrf Cert.LibColumn

/-- The zero vector of length 512 the softplus lowering compares and subtracts with. -/
abbrev zvec : FVec Ideal S512 .f32 := broadcast S512 (Scalar.ofBits .f32 0x00000000#32)

/-- Which observations of the tile are present: y ≠ -1. -/
def present (x0 : IVec S2048x512 32) : IVec S2048x512 1 := cmpi .ne x0 (broadcast S2048x512 4294967295#32)

/-- softplus(θ) over the 512 features, as lowered: the guard compares θ - 0 with itself. -/
def softVec (x1 : FVec Ideal S512 .f32) : FVec Ideal S512 .f32 :=
  select (cmpf .one (subf x1 zvec) (subf x1 zvec)) (addf x1 zvec)
    (addf (maximumf x1 zvec) (log1p (exp (subf zvec (absf (subf x1 zvec))))))

/-- The tile's table of cells: (θ + ψ) · y where present, softplus(θ) where missing, the row vectors repeated
    over the 2048 rows. -/
def logp (x0 : IVec S2048x512 32) (x1 x2 : FVec Ideal S512 .f32) : FVec Ideal S2048x512 .f32 :=
  select (present x0)
    (mulf (broadcastTo S2048x512 (shapeCast S1x512 (addf x1 x2) shapeCasts_S512_S1x512) broadcasts_S1x512_S2048x512)
      (sitofp .f32 (select (present x0) x0 (broadcast S2048x512 0#32))))
    (broadcastTo S2048x512 (shapeCast S1x512 (shapeCast S1x512 (softVec x1) shapeCasts_S512_S1x512)
      shapeCasts_S1x512_S1x512) broadcasts_S1x512_S2048x512)

/-- The tile's total as the 1 × 1 vector the body adds to the accumulator: rows summed over features, then the
    column of row totals summed. -/
def tileVec (x0 : IVec S2048x512 32) (x1 x2 : FVec Ideal S512 .f32) : FVec Ideal S1x1 .f32 :=
  shapeCast S1x1
    (multiReduction .add [0] S1
      (shapeCast S2048x1
        (multiReduction .add [1] S2048 (logp x0 x1 x2) 0x00000000#32 reduces_S2048x512_S2048 (.inl rfl) rfl)
        shapeCasts_S2048_S2048x1)
      0x00000000#32 reduces_S2048x1_S1 (.inl rfl) rfl)
    shapeCasts_S1_S1x1

/-- The accumulating store's value is the accumulator plus the tile's total. -/
theorem pay3_eq (x0 : IVec S2048x512 32) (x1 x2 : FVec Ideal S512 .f32) (acc : FVec Ideal S1x1 .f32) :
    k0_pay3 (F := Ideal) x0 x1 x2 acc = addf (shapeCast S1x1 acc shapeCasts_S1x1_S1x1) (tileVec x0 x1 x2) := rfl

/-- Subtracting from the printed zero is negation. -/
theorem zsub (X : EReal) : Ideal.ofBits .f32 0x00000000#32 - X = -X := by
  rw [Ideal.ofBits_zero_f32, zero_sub]

/-- softplus at a feature: the guard is never taken, and 0 - |d| is -|d|. -/
theorem softVec_apply (x1 : FVec Ideal S512 .f32) (j : S512.Idx) : softVec x1 j = soft (x1 j) := by
  have raw : softVec x1 j
      = Scalar.select (Ideal.cmp .one (x1 j - Ideal.ofBits .f32 0x00000000#32) (x1 j - Ideal.ofBits .f32 0x00000000#32))
          (x1 j + Ideal.ofBits .f32 0x00000000#32)
          (max (x1 j) (Ideal.ofBits .f32 0x00000000#32)
            + Ideal.log1p (Ideal.exp (Ideal.ofBits .f32 0x00000000#32
                - max (x1 j - Ideal.ofBits .f32 0x00000000#32) (-(x1 j - Ideal.ofBits .f32 0x00000000#32))))) := rfl
  rw [raw, cmp_one_self, select_zero, zsub]
  rfl

/-- A length-512 vector laid as a row and repeated over the tile's rows reads, at (r, f), the vector at f. -/
theorem row_bcast (v : FVec Ideal S512 .f32) (r : Fin 2048) (f : Fin 512) :
    broadcastTo S2048x512 (shapeCast S1x512 v shapeCasts_S512_S1x512) broadcasts_S1x512_S2048x512 (ix2 r f)
      = v (ix1 f) := by
  rw [broadcastTo_1b_ab_apply, shapeCast_a_1a_apply]

/-- The table at (r, f) is the cell of that observation and that feature's parameters. -/
theorem logp_apply (x0 : IVec S2048x512 32) (x1 x2 : FVec Ideal S512 .f32) (r : Fin 2048) (f : Fin 512) :
    logp x0 x1 x2 (ix2 r f) = cell (x0 (ix2 r f)) (x1 (ix1 f)) (x2 (ix1 f)) := by
  have raw : logp x0 x1 x2 (ix2 r f)
      = Scalar.select (IntOp.cmpi .ne (x0 (ix2 r f)) 4294967295#32)
          (broadcastTo S2048x512 (shapeCast S1x512 (addf x1 x2) shapeCasts_S512_S1x512) broadcasts_S1x512_S2048x512 (ix2 r f)
            * FloatOps.sitofp (F := Ideal) .f32
                (Scalar.select (IntOp.cmpi .ne (x0 (ix2 r f)) 4294967295#32) (x0 (ix2 r f)) 0#32))
          (broadcastTo S2048x512 (shapeCast S1x512 (shapeCast S1x512 (softVec x1) shapeCasts_S512_S1x512)
            shapeCasts_S1x512_S1x512) broadcasts_S1x512_S2048x512 (ix2 r f)) := rfl
  rw [raw, row_bcast, shapeCast_self, row_bcast, softVec_apply]
  rfl

/-- The tile's total, read at the one index of the 1 × 1 vector: the sum over rows of the sums over features. -/
theorem tileVec_apply (x0 : IVec S2048x512 32) (x1 x2 : FVec Ideal S512 .f32) (u w : Fin 1) :
    tileVec x0 x1 x2 (ix2 u w) = ∑ r : Fin 2048, ∑ f : Fin 512, logp x0 x1 x2 (ix2 r f) := by
  unfold tileVec
  rw [shapeCast_a_1a_apply]
  refine (Ideal.multiReduction_add_single _ 0x00000000#32 reduces_S2048x1_S1 _ _ (ix1 w)).trans ?_
  refine Finset.sum_congr rfl fun r _ => ?_
  rw [show reduces_S2048x1_S1.lift (ix1 w) r = ix2 (n0 := 2048) (n1 := 1) ⟨r.val, r.isLt⟩ w from
    Shape.idx_ext₂ rfl rfl]
  rw [shapeCast_a_a1_apply]
  refine (Ideal.multiReduction_add_single _ 0x00000000#32 reduces_S2048x512_S2048 _ _ (ix1 ⟨r.val, r.isLt⟩)).trans ?_
  refine Finset.sum_congr rfl fun f _ => ?_
  exact congrArg _ (Shape.idx_ext₂ rfl rfl)

/-- One tile's total of cells. -/
def tile (x0 : IVec S2048x512 32) (x1 x2 : FVec Ideal S512 .f32) : EReal :=
  ∑ r : Fin 2048, ∑ f : Fin 512, cell (x0 (ix2 r f)) (x1 (ix1 f)) (x2 (ix1 f))

/-- The accumulating store at the accumulator's index: what was there plus the tile's total. -/
theorem pay3_apply (x0 : IVec S2048x512 32) (x1 x2 : FVec Ideal S512 .f32) (acc : FVec Ideal S1x1 .f32) (j : S1x1.Idx) :
    k0_pay3 (F := Ideal) x0 x1 x2 acc j = acc j + tile x0 x1 x2 := by
  obtain ⟨u, w, rfl⟩ : ∃ (u w : Fin 1), j = ix2 u w := ⟨j 0, j 1, eq_ix2 j⟩
  rw [pay3_eq]
  show shapeCast S1x1 acc shapeCasts_S1x1_S1x1 (ix2 u w) + tileVec x0 x1 x2 (ix2 u w) = _
  rw [shapeCast_self, tileVec_apply]
  unfold tile
  simp only [logp_apply]

/-- The reset stores zero. -/
theorem pay2_apply (j : S1x1.Idx) : k0_pay2 (F := Ideal) j = 0 :=
  Ideal.ofBits_zero_f32

/-- The last point's store: the accumulator negated by subtraction from zero, times 1/65536. -/
theorem pay1_apply (acc : FVec Ideal S1x1 .f32) (j : S1x1.Idx) :
    k0_pay1 (F := Ideal) acc j = (0 - acc j) * ((1 / 65536 : ℝ) : EReal) := by
  have raw : k0_pay1 (F := Ideal) acc j
      = (Ideal.ofBits .f32 0x00000000#32 - shapeCast S1x1 acc shapeCasts_S1x1_S1x1 j)
          * Ideal.ofBits .f32 0x37800000#32 := rfl
  rw [raw, shapeCast_self, Ideal.ofBits_zero_f32, ofBits_inv65536]

end Cert.KernelIdeal.Tile

end
-- ==== Proof.KernelValue.lean ====
/-
  The kernel's result, as a function of the argument arrays, at the ideal values.

  Grid point t stages rows 2048·t … 2048·t + 2047 of the observations and the whole of θ and ψ. The accumulator block
  is reset at point 0, gains tile t's total at every point, and at point 31 is replaced by its rescaled negation; it
  is written back to its 1 × 1 array once, after point 31, and that block is the whole array. A reshape then makes the
  1 × 1 array the scalar result. So the result is
      (0 - Σ_{t<32} Σ_{r<2048} Σ_{f<512} cell(Y[2048·t + r, f], θ[f], ψ[f])) · 1/65536,
  the running total by induction over the grid points.
-/
import proofs.«158068_j25941602467911_1_alg».proof.Proof.KernelPieces
import proofs.«158068_j25941602467911_1_alg».proof.Proof.KernelTile
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.CoinMrf Cert.KernelIdeal.Tile Cert.KernelIdeal.Pieces

variable (m : (ℓ : Loc nD τ sig) → Buf (Elt Ideal) ℓ) (ρ : Dev nD → PrngReg)

/-! ## The arguments and the windows' blocks, at their literal types -/

/-- The observations, θ and ψ as the launch finds them. -/
abbrev obs (c : Dev nD) : IVec S65536x512 32 := m ((c : Thread nD τ).loc main_arg0)
abbrev theta (c : Dev nD) : FVec Ideal S512 .f32 := m ((c : Thread nD τ).loc main_arg1)
abbrev psi (c : Dev nD) : FVec Ideal S512 .f32 := m ((c : Thread nD τ).loc main_arg2)

/-- What point t stages of each. -/
abbrev oblk (c : Dev nD) (t : Fin cfg0.N) : IVec S2048x512 32 := iblk m c 0 t
abbrev tblk (c : Dev nD) (t : Fin cfg0.N) : FVec Ideal S512 .f32 := iblk m c 1 t
abbrev pblk (c : Dev nD) (t : Fin cfg0.N) : FVec Ideal S512 .f32 := iblk m c 2 t

/-- The observations' block index at point t is (t, 0); the parameter vectors' is 0. -/
theorem index_obs : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_theta : ∀ t : Fin cfg0.N, win0_1.index t (0 : Fin 1) = 0 :=
  (by decide +kernel : ∀ t : Fin grid0.N, win0_1.index t (0 : Fin 1) = 0)
theorem index_psi : ∀ t : Fin cfg0.N, win0_2.index t (0 : Fin 1) = 0 :=
  (by decide +kernel : ∀ t : Fin grid0.N, win0_2.index t (0 : Fin 1) = 0)

theorem lt32 (t : Fin cfg0.N) : t.val < 32 := lt_of_lt_of_eq t.isLt (show cfg0.N = 32 from N_0)

/-- Row r of point t's block of observations is row 2048·t + r of the array. -/
theorem oblk_apply (c : Dev nD) (t : Fin cfg0.N) (r : Fin 2048) (f : Fin 512) :
    oblk m c t (ix2 r f)
      = obs m c (ix2 ⟨2048 * t.val + r.val, by have := lt32 t; have := r.isLt; omega⟩ f) := by
  show iblk m c 0 t (ix2 r f) = _
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ =>
    show win0_0.index t 0 * 2048 + 1 * r.val = 2048 * t.val + r.val
    rw [(index_obs t).1]; omega
  | ⟨1, _⟩ =>
    show win0_0.index t 1 * 512 + 1 * f.val = f.val
    rw [(index_obs t).2]; omega

/-- The staged θ and ψ are the arrays themselves. -/
theorem tblk_apply (c : Dev nD) (t : Fin cfg0.N) (f : Fin 512) : tblk m c t (ix1 f) = theta m c (ix1 f) := by
  show iblk m c 1 t (ix1 f) = _
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ =>
    show win0_1.index t 0 * 512 + 1 * f.val = f.val
    rw [index_theta t]; omega

theorem pblk_apply (c : Dev nD) (t : Fin cfg0.N) (f : Fin 512) : pblk m c t (ix1 f) = psi m c (ix1 f) := by
  show iblk m c 2 t (ix1 f) = _
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ =>
    show win0_2.index t 0 * 512 + 1 * f.val = f.val
    rw [index_psi t]; omega

/-! ## One tile's total, and the accumulator point by point -/

/-- Tile t's total of cells, from the staged blocks. -/
def tileAt (c : Dev nD) (t : Fin cfg0.N) : EReal := tile (oblk m c t) (tblk m c t) (pblk m c t)

/-- The same from the argument arrays. -/
theorem tileAt_eq (c : Dev nD) (t : Fin cfg0.N) :
    tileAt m c t = ∑ r : Fin 2048, ∑ f : Fin 512,
      cell (obs m c (ix2 ⟨2048 * t.val + r.val, by have := lt32 t; have := r.isLt; omega⟩ f))
        (theta m c (ix1 f)) (psi m c (ix1 f)) := by
  unfold tileAt tile
  refine Finset.sum_congr rfl fun r _ => Finset.sum_congr rfl fun f _ => ?_
  rw [oblk_apply, tblk_apply, pblk_apply]

/-- Tile totals indexed by a natural number, zero past the grid. -/
def tileN (c : Dev nD) (n : ℕ) : EReal := if h : n < cfg0.N then tileAt m c ⟨n, h⟩ else 0

theorem tileN_of_lt (c : Dev nD) (n : ℕ) (h : n < cfg0.N) : tileN m c n = tileAt m c ⟨n, h⟩ := dif_pos h

/-- What the three cases leave, with the pieces read back as the stores' values. -/
theorem step_first (c : Dev nD) (t : Fin cfg0.N) (h0 : t.val % 32 = 0) (h1 : ¬t.val % 32 = 31) :
    outsAt0 m c t.val t.isLt = k0_pay3 (F := Ideal) (iblk m c 0 t) (iblk m c 1 t) (iblk m c 2 t) (k0_pay2 (F := Ideal)) :=
  (outsAt0_A m c t h0 h1).trans
    (out_A (F := Ideal) c (grid0.coords t) (ms0_0 t) (hs0_0 t) (ms0_1 t) (hs0_1 t) (ms0_2 t) (hs0_2 t) (ms0_3 t) (hs0_3 t)
      ((hcond0_0 t).mpr h0) (fun h => h1 ((hcond0_1 t).mp h)) (iblk m c 0 t) (iblk m c 1 t) (iblk m c 2 t))

theorem step_middle (c : Dev nD) (t : Fin cfg0.N) (h0 : ¬t.val % 32 = 0) (h1 : ¬t.val % 32 = 31) :
    outsAt0 m c t.val t.isLt = k0_pay3 (F := Ideal) (iblk m c 0 t) (iblk m c 1 t) (iblk m c 2 t)
      (outsAt0 m c (t.val - 1) (Nat.lt_of_le_of_lt (Nat.sub_le _ _) t.isLt)) :=
  (outsAt0_B m c t h0 h1).trans
    (out_B (F := Ideal) c (grid0.coords t) (ms0_0 t) (hs0_0 t) (ms0_1 t) (hs0_1 t) (ms0_2 t) (hs0_2 t) (ms0_3 t) (hs0_3 t)
      (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)))

theorem step_last (c : Dev nD) (t : Fin cfg0.N) (h0 : ¬t.val % 32 = 0) (h1 : t.val % 32 = 31) :
    outsAt0 m c t.val t.isLt = k0_pay1 (F := Ideal) (k0_pay3 (F := Ideal) (iblk m c 0 t) (iblk m c 1 t) (iblk m c 2 t)
      (outsAt0 m c (t.val - 1) (Nat.lt_of_le_of_lt (Nat.sub_le _ _) t.isLt))) :=
  (outsAt0_C m c t h0 h1).trans
    (out_C (F := Ideal) c (grid0.coords t) (ms0_0 t) (hs0_0 t) (ms0_1 t) (hs0_1 t) (ms0_2 t) (hs0_2 t) (ms0_3 t) (hs0_3 t)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)))

/-- The accumulating store at point t adds tile t's total to what it finds. -/
theorem add_tile (c : Dev nD) (t : Fin cfg0.N) (acc : FVec Ideal S1x1 .f32) (j : S1x1.Idx) :
    k0_pay3 (F := Ideal) (iblk m c 0 t) (iblk m c 1 t) (iblk m c 2 t) acc j = acc j + tileAt m c t :=
  pay3_apply (oblk m c t) (tblk m c t) (pblk m c t) acc j

/-- Before the last point the accumulator holds the sum of the tiles met so far. -/
theorem acc_eq (c : Dev nD) : ∀ (n : ℕ) (h : n < cfg0.N), n < 31 → ∀ j : S1x1.Idx,
    (outsAt0 m c n h : FVec Ideal S1x1 .f32) j = ∑ t ∈ Finset.range (n + 1), tileN m c t
  | 0, h, _, j => by
    refine (congrFun (step_first m c ⟨0, h⟩ rfl (by dsimp only; omega)) j).trans ?_
    refine (add_tile m c ⟨0, h⟩ _ j).trans ?_
    rw [pay2_apply, zero_add, Finset.sum_range_one, tileN_of_lt m c 0 h]
  | n + 1, h, hlt, j => by
    have h0 : ¬(⟨n + 1, h⟩ : Fin cfg0.N).val % 32 = 0 := by dsimp only; omega
    have h1 : ¬(⟨n + 1, h⟩ : Fin cfg0.N).val % 32 = 31 := by dsimp only; omega
    refine (congrFun (step_middle m c ⟨n + 1, h⟩ h0 h1) j).trans ?_
    refine (add_tile m c ⟨n + 1, h⟩ _ j).trans ?_
    rw [Finset.sum_range_succ, tileN_of_lt m c (n + 1) h]
    exact congrArg (· + tileAt m c ⟨n + 1, h⟩) (acc_eq c n (Nat.lt_of_succ_lt h) (by omega) j)

/-- After the last point the block holds the rescaled negation of the sum of all 32 tiles. -/
theorem last_eq (c : Dev nD) (h : 31 < cfg0.N) (j : S1x1.Idx) :
    (outsAt0 m c 31 h : FVec Ideal S1x1 .f32) j
      = (0 - ∑ t ∈ Finset.range 32, tileN m c t) * ((1 / 65536 : ℝ) : EReal) := by
  have h0 : ¬(⟨31, h⟩ : Fin cfg0.N).val % 32 = 0 := by dsimp only; omega
  have h1 : (⟨31, h⟩ : Fin cfg0.N).val % 32 = 31 := rfl
  refine (congrFun (step_last m c ⟨31, h⟩ h0 h1) j).trans ?_
  refine (pay1_apply _ j).trans ?_
  refine congrArg (fun s : EReal => (0 - s) * ((1 / 65536 : ℝ) : EReal)) ?_
  refine (add_tile m c ⟨31, h⟩ _ j).trans ?_
  rw [Finset.sum_range_succ, tileN_of_lt m c 31 h]
  exact congrArg (· + tileAt m c ⟨31, h⟩) (acc_eq m c 30 (Nat.lt_of_succ_lt h) (by norm_num) j)

/-! ## The result -/

/-- The kernel's scalar: all cells summed tile by tile, negated by subtraction from zero, times 1/65536. -/
def total (c : Dev nD) : EReal :=
  (0 - ∑ t : Fin 32, ∑ r : Fin 2048, ∑ f : Fin 512,
      cell (obs m c (ix2 ⟨2048 * t.val + r.val, by have := t.isLt; have := r.isLt; omega⟩ f))
        (theta m c (ix1 f)) (psi m c (ix1 f))) * ((1 / 65536 : ℝ) : EReal)

theorem sum_tiles (c : Dev nD) :
    ∑ t ∈ Finset.range 32, tileN m c t = ∑ t : Fin 32, ∑ r : Fin 2048, ∑ f : Fin 512,
      cell (obs m c (ix2 ⟨2048 * t.val + r.val, by have := t.isLt; have := r.isLt; omega⟩ f))
        (theta m c (ix1 f)) (psi m c (ix1 f)) := by
  rw [Finset.sum_range]
  refine Finset.sum_congr rfl fun t _ => ?_
  rw [tileN_of_lt m c t.val (by rw [show cfg0.N = 32 from N_0]; exact t.isLt), tileAt_eq]

/-- The 1 × 1 result array's contents. -/
abbrev res11 (c : Dev nD) : Buf (Elt Ideal) ((c : Thread nD τ).loc main_v0) := fun _ => total m c

/-- The last grid point. -/
abbrev tLast : Fin cfg0.N := ⟨31, by rw [show cfg0.N = 32 from N_0]; decide⟩

/-- The one write-back, after point 31, writes the rescaled total. -/
theorem flushed_eq (c : Dev nD) (t : Fin cfg0.N) (hf : (cfg0.win 3).flush t = true) :
    (dats m 0 c).flushed 3 t = ((cfg0.win 3).blk t).view.read (Elt Ideal) (res11 m c) := by
  have hN : cfg0.N = 32 := N_0
  have h31 : t.val = 31 := by have := (flush0_3 t).mp hf; have := t.isLt; omega
  obtain rfl : t = tLast := Fin.ext h31
  funext y
  rw [View.read_apply]
  show (dats m 0 c).after 3 tLast _ = total m c
  rw [after0_3]
  refine (last_eq m c tLast.isLt _).trans ?_
  unfold total
  rw [sum_tiles]

/-- That block is the whole 1 × 1 array. -/
theorem final11 (c : Dev nD) : (dats m 0 c).arrAt 3 cfg0.N = res11 m c :=
  (dats m 0 c).arrAt_eq_of_cover 3 (res11 m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

/-- The scalar result buffer's contents. -/
abbrev res0 (c : Dev nD) : Buf (Elt Ideal) ((c : Thread nD τ).loc main_v1) := fun _ => total m c

/-- The reshape after the region reads the 1 × 1 array's one entry. -/
theorem tail_eq (c : Dev nD) :
    Pipeline.afterTail₀ cfgs (dats m) 0 (V0 m) [hostOps1] c main_v1 = res0 m c := by
  have hw : Pipeline.withArrays (cfgs 0).spec c (V0 m c) (fun w => (dats m 0 c).arrAt w (cfgs 0).N)
      (Proc.devRef .tc main_v0) = res11 m c :=
    (Pipeline.withArrays_arr spec0 launch0.win.arr_inj c _ _ 3).trans (final11 m c)
  unfold Pipeline.afterTail₀
  show StableHlo.after hostOps1 _ (Proc.devRef .tc main_v1) = _
  after_results
  funext i
  rw [hw]
  rfl

/-- The scalar result is an unscoped buffer that no window stages. -/
theorem main_v1_rest : main_v1 ∈ Pipeline.restRefs sig (cfgs 0).spec :=
  Pipeline.mem_restRefs_of main_v1 rfl (fun w => by fin_cases w <;> decide)

/-- The kernel's run, read: the scalar at the total, the three arguments unchanged. -/
theorem run : θ_run defs (onTc (τ := τ) (main (F := Ideal))) ⟨m, fun _ => 0, ρ⟩ (fun r => ∀ c : Dev nD,
      r.2.mem ((c.tc : Thread nD τ).loc main_v1) = res0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 main_v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefValue.lean ====
/-
  The reference's result, as a function of the argument arrays, at the ideal values.

  The reference forms the whole 65536 × 512 table of cells at once — the same cell as the kernel's, its softplus
  spelt with a negation where the kernel subtracts from zero and its never-taken guard an unordered comparison —, sums
  each row over the features from zero, sums the row totals from zero, divides by 65536 and negates. Read one
  operation at a time off the program's run, the result is
      -( (0 + Σ_n (0 + Σ_f cell(Y[n,f], θ[f], ψ[f]))) / 65536 ).
-/
import proofs.«158068_j25941602467911_1_alg».proof.Defs
import proofs.«158068_j25941602467911_1_alg».proof.Proof.Gen.ReferenceIdeal.Run
import proofs.«158068_j25941602467911_1_alg».proof.Proof.Gen.ReferenceIdeal.Read
import proofs.«158068_j25941602467911_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.CoinMrf

/-- A sum over the indices of a vector is the sum over its one coordinate. -/
theorem sum_idx1 {M : Type*} [AddCommMonoid M] {n : ℕ} (g : (⟨1, ![n]⟩ : Shape).Idx → M) :
    ∑ j, g j = ∑ k : Fin n, g (ix1 k) :=
  Fintype.sum_equiv ⟨fun j => j 0, fun k => ix1 k, fun j => (eq_ix1 j).symm, fun _ => rfl⟩ _ _
    fun j => congrArg g (eq_ix1 j)

variable (x0 : IVec S65536x512 32) (x1 x2 : FVec Ideal S512 .f32)

/-- The two row-vector broadcasts read feature f's entry at every row. -/
theorem idx_sum_row (n : Fin 65536) (f : Fin 512) : idx_main_v5 (idx_main_v6 (ix2 n f)) = ix1 f :=
  funext fun a => match a with | ⟨0, _⟩ => rfl
theorem idx_soft_row (n : Fin 65536) (f : Fin 512) : idx_main_v9 (idx_main_call2_v0 (ix2 n f)) = ix1 f :=
  funext fun a => match a with | ⟨0, _⟩ => rfl
theorem idx_row_sum (n : Fin 65536) (f : Fin 512) : idx_main_v11 (ix1 n) f = ix2 n f :=
  funext fun a => match a with | ⟨0, _⟩ => rfl | ⟨1, _⟩ => rfl

/-- The reference's softplus at a feature: the guard compares θ - 0 with itself and is never taken. -/
theorem soft_ref (k : S512.Idx) : val_main_v8 (F := Ideal) x1 k = soft (x1 k) := by
  have raw : val_main_v8 (F := Ideal) x1 k
      = Scalar.select (Ideal.cmp .une (x1 k - Ideal.ofBits .f32 0x00000000#32) (x1 k - Ideal.ofBits .f32 0x00000000#32))
          (x1 k + Ideal.ofBits .f32 0x00000000#32)
          (max (x1 k) (Ideal.ofBits .f32 0x00000000#32)
            + Ideal.log1p (Ideal.exp
                (-(max (x1 k - Ideal.ofBits .f32 0x00000000#32) (-(x1 k - Ideal.ofBits .f32 0x00000000#32)))))) := by
    rw [val_main_v8_apply, val_main_call1_v4_apply, val_main_call1_v6_apply, val_main_call1_v11_apply,
      val_main_call1_v1_apply, val_main_call1_v10_apply, val_main_call1_v9_apply, val_main_call1_v8_apply,
      val_main_call1_v7_apply, val_main_call1_v3_apply, val_main_call1_v0_apply, val_main_call1_v2_apply,
      val_main_call1_v5_apply]
    rfl
  rw [raw, cmp_une_self, select_zero]
  rfl

/-- The reference's table at (n, f) is the cell of that observation and that feature's parameters. -/
theorem cell_ref (n : Fin 65536) (f : Fin 512) :
    val_main_v10 (F := Ideal) x0 x1 x2 (ix2 n f) = cell (x0 (ix2 n f)) (x1 (ix1 f)) (x2 (ix1 f)) := by
  rw [val_main_v10_apply, val_main_v7_apply, val_main_v6_apply, val_main_v5_apply, val_main_v4_apply,
    val_main_v3_apply, val_main_v2_apply, val_main_v1_apply, val_main_v0_apply, val_main_c_apply,
    val_main_call0_v1_apply, val_main_call0_v0_apply, val_main_c_0_apply, val_main_call2_v0_apply,
    val_main_v9_apply, idx_sum_row, idx_soft_row, soft_ref]
  rfl

/-- Row n's total: zero plus the row's cells. -/
theorem row_ref (n : Fin 65536) :
    val_main_v11 (F := Ideal) x0 x1 x2 (ix1 n)
      = 0 + ∑ f : Fin 512, cell (x0 (ix2 n f)) (x1 (ix1 f)) (x2 (ix1 f)) := by
  rw [val_main_v11_apply, val_main_cst_apply]
  refine congrArg₂ (· + ·) Ideal.ofBits_zero_f32 (Finset.sum_congr rfl fun f _ => ?_)
  rw [idx_row_sum]
  exact cell_ref x0 x1 x2 n f

/-- The reference's scalar. -/
def total : EReal :=
  -(Ideal.div ((0 : EReal) + ∑ n : Fin 65536, ((0 : EReal) + ∑ f : Fin 512, cell (x0 (ix2 n f)) (x1 (ix1 f)) (x2 (ix1 f))))
      ((65536 : ℝ) : EReal))

theorem result_ref (i : S_.Idx) : val_main_v14 (F := Ideal) x0 x1 x2 i = total x0 x1 x2 := by
  rw [val_main_v14_apply, val_main_v13_apply, val_main_v12_apply, val_main_cst_2_apply, val_main_cst_1_apply, sum_idx1]
  simp only [row_ref x0 x1 x2]
  unfold total
  rw [← ofBits_65536, ← Ideal.ofBits_zero_f32]
  rfl

end Cert.ReferenceIdeal.RefValue

end
-- ==== Proof.lean ====
/-
  The claim: the tiled kernel and the whole-array reference compute one scalar over the extended reals.

  Both programs build the same table of log-probability cells from the observations Y (entries in {-1, 0, 1}, -1 the
  missing marker) and the parameters θ, ψ:  (θ_f + ψ_f) · Y[n,f]  where the entry is present, softplus(θ_f) where it is
  missing. The kernel sums the table tile by tile over 32 grid points of 2048 rows into a resident 1 × 1 accumulator
  and finishes with (0 - total) · 2⁻¹⁶; the reference sums rows, then the row totals, divides by 65536 and negates.
  The three frames are the generated ones (the reference's its generated run with the result dropped); the idealization
  rewrote nothing; the value claim is the regrouping of a finite sum, 2⁻¹⁶ = 1/65536 and -x·c = -(x·c), none of which
  needs the inputs to be finite.
-/
import proofs.«158068_j25941602467911_1_alg».proof.Defs
import proofs.«158068_j25941602467911_1_alg».proof.Proof.Gen.Kernel
import proofs.«158068_j25941602467911_1_alg».proof.Proof.Gen.Kernel.Skeleton
import proofs.«158068_j25941602467911_1_alg».proof.Proof.Gen.Kernel.Launch
import proofs.«158068_j25941602467911_1_alg».proof.Proof.Gen.Kernel.Points
import proofs.«158068_j25941602467911_1_alg».proof.Proof.Gen.Kernel.Frame
import proofs.«158068_j25941602467911_1_alg».proof.Proof.Gen.KernelIdeal
import proofs.«158068_j25941602467911_1_alg».proof.Proof.Gen.KernelIdeal.Skeleton
import proofs.«158068_j25941602467911_1_alg».proof.Proof.Gen.KernelIdeal.Launch
import proofs.«158068_j25941602467911_1_alg».proof.Proof.Gen.KernelIdeal.Points
import proofs.«158068_j25941602467911_1_alg».proof.Proof.Gen.KernelIdeal.Frame
import proofs.«158068_j25941602467911_1_alg».proof.Proof.Gen.ReferenceIdeal
import proofs.«158068_j25941602467911_1_alg».proof.Proof.Gen.ReferenceIdeal.Run
import proofs.«158068_j25941602467911_1_alg».proof.Proof.Gen.ReferenceIdeal.Read
import proofs.«158068_j25941602467911_1_alg».proof.Proof.Gen.Pre_finite_inputs
import proofs.«158068_j25941602467911_1_alg».proof.Proof.KernelValue
import proofs.«158068_j25941602467911_1_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the scalar at the kernel's total: the reference's total of arguments that agree is that
    total, by the regrouping law. -/
theorem algebraic : Cert.algebraic_KernelIdeal_ReferenceIdeal := by
  intro m ρ m' ρ' _ hagree
  refine ⟨fun c => Cert.KernelIdeal.KValue.res0 m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ?_
  funext i
  refine (Cert.ReferenceIdeal.RefValue.result_ref _ _ _ i).trans ?_
  rw [(hagree c).1, (hagree c).2.1, (hagree c).2.2]
  exact (Cert.CoinMrf.result_law fun n f =>
    Cert.CoinMrf.cell (Cert.KernelIdeal.KValue.obs m c (ix2 n f)) (Cert.KernelIdeal.KValue.theta m c (ix1 f))
      (Cert.KernelIdeal.KValue.psi m c (ix1 f))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
